-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x256 : Shape := ⟨2, ![32768, 256]⟩
abbrev S128x2048 : Shape := ⟨2, ![128, 2048]⟩
abbrev S_ : Shape := ⟨0, ![]⟩

class Facts : Prop where
  bcast_S_S32768x256 : S_.BroadcastsInDim S32768x256 (![] : Fin 0 → Fin S32768x256.rank)
  reducesTo_S32768x256_S_d0_1 : S32768x256.ReducesTo [0, 1] S_
  h_S_ : 0 < S_.numel
  bcast_S_S128x2048 : S_.BroadcastsInDim S128x2048 (![] : Fin 0 → Fin S128x2048.rank)
  reducesTo_S128x2048_S_d0_1 : S128x2048.ReducesTo [0, 1] S_

variable [Facts]

def fn {F : FTy → Type} [FloatOps F] (main_arg0 : FVec F S32768x256 .f32) (main_arg1 : FVec F S128x2048 .f32) : IVec S_ 1 :=
  let main_v0 : FVec F S32768x256 .f32 := Host.absf main_arg0
  let main_cst : FVec F S_ .f32 := constant S_ .f32 0x7F800000#32
  let main_v1 : FVec F S32768x256 .f32 := broadcastInDim S32768x256 ![] bcast_S_S32768x256 main_cst
  let main_v2 : IVec S32768x256 1 := cmpf .olt main_v0 main_v1
  let main_c : IVec S_ 1 := constantI S_ 1 1#1
  let main_v3 : IVec S_ 1 := (fun x v => Host.reduce IntOp.andi x v reducesTo_S32768x256_S_d0_1 h_S_) main_v2 main_c
  let main_v4 : FVec F S128x2048 .f32 := Host.absf main_arg1
  let main_cst_0 : FVec F S_ .f32 := constant S_ .f32 0x7F800000#32
  let main_v5 : FVec F S128x2048 .f32 := broadcastInDim S128x2048 ![] bcast_S_S128x2048 main_cst_0
  let main_v6 : IVec S128x2048 1 := cmpf .olt main_v4 main_v5
  let main_c_1 : IVec S_ 1 := constantI S_ 1 1#1
  let main_v7 : IVec S_ 1 := (fun x v => Host.reduce IntOp.andi x v reducesTo_S128x2048_S_d0_1 h_S_) main_v6 main_c_1
  let main_v8 : IVec S_ 1 := andi main_v3 main_v7
  main_v8
-- ==== Kernel.lean ====
abbrev S32768x256 : Shape := ⟨2, ![32768, 256]⟩
abbrev S128x2048 : Shape := ⟨2, ![128, 2048]⟩
abbrev S_ : Shape := ⟨0, ![]⟩
abbrev S2048 : Shape := ⟨1, ![2048]⟩
abbrev S256x8 : Shape := ⟨2, ![256, 8]⟩
abbrev S8x256 : Shape := ⟨2, ![8, 256]⟩
abbrev S32768x1 : Shape := ⟨2, ![32768, 1]⟩
abbrev S4096x256 : Shape := ⟨2, ![4096, 256]⟩
abbrev S4096x1 : Shape := ⟨2, ![4096, 1]⟩
abbrev S1x256 : Shape := ⟨2, ![1, 256]⟩
abbrev S256 : Shape := ⟨1, ![256]⟩
abbrev S4096 : Shape := ⟨1, ![4096]⟩

abbrev nBuf : Space → Nat
  | .hbm => 7
  | .vmem => 5
  | .smem => 0
  | _ => 0

abbrev bufTy : (tb : Table) → Fin (tcTables nBuf tb) → BufTy
  | .hbm, ⟨0, _⟩ => ⟨S32768x256, .f32⟩
  | .hbm, ⟨1, _⟩ => ⟨S128x2048, .f32⟩
  | .hbm, ⟨2, _⟩ => ⟨S_, .f32⟩
  | .hbm, ⟨3, _⟩ => ⟨S2048, .f32⟩
  | .hbm, ⟨4, _⟩ => ⟨S256x8, .f32⟩
  | .hbm, ⟨5, _⟩ => ⟨S8x256, .f32⟩
  | .hbm, ⟨6, _⟩ => ⟨S32768x1, .f32⟩
  | .local _ .vmem, ⟨0, _⟩ => ⟨S4096x256, .f32⟩
  | .local _ .vmem, ⟨1, _⟩ => ⟨S4096x256, .f32⟩
  | .local _ .vmem, ⟨2, _⟩ => ⟨S8x256, .f32⟩
  | .local _ .vmem, ⟨3, _⟩ => ⟨S4096x1, .f32⟩
  | .local _ .vmem, ⟨4, _⟩ => ⟨S4096x1, .f32⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  reducesTo_S128x2048_S2048_d0 : S128x2048.ReducesTo [0] S2048
  h_S_ : 0 < S_.numel
  shapeCasts_S2048_S256x8 : S2048.ShapeCasts S256x8
  transposes_S256x8_S8x256_1_0 : S256x8.Transposes [1, 0] S8x256
  inb_S4096x256_S4096x256_0_0 : ∀ a, (![0, 0] : Fin 2 → Nat) a + S4096x256.size a ≤ S4096x256.size a
  h_S4096x256 : 0 < S4096x256.numel
  inb_S8x256_S8x256_0_0 : ∀ a, (![0, 0] : Fin 2 → Nat) a + S8x256.size a ≤ S8x256.size a
  h_S8x256 : 0 < S8x256.numel
  shapeCasts_S8x256_S8x256 : S8x256.ShapeCasts S8x256
  slices_S8x256_o0_0_S1x256 : S8x256.Slices ![0, 0] S1x256
  shapeCasts_S1x256_S256 : S1x256.ShapeCasts S256
  shapeCasts_S256_S1x256 : S256.ShapeCasts S1x256
  broadcasts_S1x256_S4096x256 : S1x256.Broadcasts S4096x256
  reduces_S4096x256_S4096 : S4096x256.Reduces [1] S4096
  shapeCasts_S4096_S4096x1 : S4096.ShapeCasts S4096x1
  slices_S8x256_o1_0_S1x256 : S8x256.Slices ![1, 0] S1x256
  slices_S8x256_o2_0_S1x256 : S8x256.Slices ![2, 0] S1x256
  slices_S8x256_o3_0_S1x256 : S8x256.Slices ![3, 0] S1x256
  slices_S8x256_o4_0_S1x256 : S8x256.Slices ![4, 0] S1x256
  slices_S8x256_o5_0_S1x256 : S8x256.Slices ![5, 0] S1x256
  slices_S8x256_o6_0_S1x256 : S8x256.Slices ![6, 0] S1x256
  slices_S8x256_o7_0_S1x256 : S8x256.Slices ![7, 0] S1x256
  inb_S4096x1_S4096x1_0_0 : ∀ a, (![0, 0] : Fin 2 → Nat) a + S4096x1.size a ≤ S4096x1.size a
  h_S4096x1 : 0 < S4096x1.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S32768x256.size a
  hwx0_0 : ∀ i : grid0.Coords, EltTy.bits .f32 = 32 ∨ (Rect.block (s := S32768x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x256.size a ≤ S8x256.size a
  hwx0_1 : ∀ i : grid0.Coords, EltTy.bits .f32 = 32 ∨ (Rect.block (s := S8x256) S8x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x1.size a ≤ S32768x1.size a
  hwx0_2 : ∀ i : grid0.Coords, EltTy.bits .f32 = 32 ∨ (Rect.block (s := S32768x1) S4096x1.size (cc0_transform_2 i) (hinb0_2 i)).WholeWords (EltTy.packing .f32)

variable [Facts₀]

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S8x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S4096x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32768x256 : Shape := ⟨2, ![32768, 256]⟩
abbrev S128x2048 : Shape := ⟨2, ![128, 2048]⟩
abbrev S_ : Shape := ⟨0, ![]⟩
abbrev S32768x256x1 : Shape := ⟨3, ![32768, 256, 1]⟩
abbrev S32768x256x8 : Shape := ⟨3, ![32768, 256, 8]⟩
abbrev S32768x2048 : Shape := ⟨2, ![32768, 2048]⟩
abbrev S32768x128 : Shape := ⟨2, ![32768, 128]⟩
abbrev S32768 : Shape := ⟨1, ![32768]⟩
abbrev S32768x1 : Shape := ⟨2, ![32768, 1]⟩

abbrev nBuf : Space → Nat
  | .hbm => 48
  | .vmem => 0
  | .smem => 0
  | _ => 0

abbrev bufTy : (tb : Table) → Fin (tcTables nBuf tb) → BufTy
  | .hbm, ⟨0, _⟩ => ⟨S32768x256, .f32⟩
  | .hbm, ⟨1, _⟩ => ⟨S128x2048, .f32⟩
  | .hbm, ⟨2, _⟩ => ⟨S_, .f32⟩
  | .hbm, ⟨3, _⟩ => ⟨S32768x256, .f32⟩
  | .hbm, ⟨4, _⟩ => ⟨S_, .f32⟩
  | .hbm, ⟨5, _⟩ => ⟨S32768x256, .f32⟩
  | .hbm, ⟨6, _⟩ => ⟨S32768x256, .f32⟩
  | .hbm, ⟨7, _⟩ => ⟨S32768x256, .f32⟩
  | .hbm, ⟨8, _⟩ => ⟨S32768x256, .f32⟩
  | .hbm, ⟨9, _⟩ => ⟨S_, .f32⟩
  | .hbm, ⟨10, _⟩ => ⟨S32768x256, .f32⟩
  | .hbm, ⟨11, _⟩ => ⟨S32768x256, .f32⟩
  | .hbm, ⟨12, _⟩ => ⟨S32768x256, .f32⟩
  | .hbm, ⟨13, _⟩ => ⟨S32768x256, .f32⟩
  | .hbm, ⟨14, _⟩ => ⟨S_, .f32⟩
  | .hbm, ⟨15, _⟩ => ⟨S32768x256, .f32⟩
  | .hbm, ⟨16, _⟩ => ⟨S32768x256, .f32⟩
  | .hbm, ⟨17, _⟩ => ⟨S32768x256, .f32⟩
  | .hbm, ⟨18, _⟩ => ⟨S32768x256, .f32⟩
  | .hbm, ⟨19, _⟩ => ⟨S_, .f32⟩
  | .hbm, ⟨20, _⟩ => ⟨S32768x256, .f32⟩
  | .hbm, ⟨21, _⟩ => ⟨S32768x256, .f32⟩
  | .hbm, ⟨22, _⟩ => ⟨S32768x256, .f32⟩
  | .hbm, ⟨23, _⟩ => ⟨S32768x256, .f32⟩
  | .hbm, ⟨24, _⟩ => ⟨S_, .f32⟩
  | .hbm, ⟨25, _⟩ => ⟨S32768x256, .f32⟩
  | .hbm, ⟨26, _⟩ => ⟨S32768x256, .f32⟩
  | .hbm, ⟨27, _⟩ => ⟨S32768x256, .f32⟩
  | .hbm, ⟨28, _⟩ => ⟨S32768x256, .f32⟩
  | .hbm, ⟨29, _⟩ => ⟨S_, .f32⟩
  | .hbm, ⟨30, _⟩ => ⟨S32768x256, .f32⟩
  | .hbm, ⟨31, _⟩ => ⟨S32768x256, .f32⟩
  | .hbm, ⟨32, _⟩ => ⟨S32768x256, .f32⟩
  | .hbm, ⟨33, _⟩ => ⟨S32768x256, .f32⟩
  | .hbm, ⟨34, _⟩ => ⟨S32768x256x1, .f32⟩
  | .hbm, ⟨35, _⟩ => ⟨S32768x256x1, .f32⟩
  | .hbm, ⟨36, _⟩ => ⟨S32768x256x1, .f32⟩
  | .hbm, ⟨37, _⟩ => ⟨S32768x256x1, .f32⟩
  | .hbm, ⟨38, _⟩ => ⟨S32768x256x1, .f32⟩
  | .hbm, ⟨39, _⟩ => ⟨S32768x256x1, .f32⟩
  | .hbm, ⟨40, _⟩ => ⟨S32768x256x1, .f32⟩
  | .hbm, ⟨41, _⟩ => ⟨S32768x256x1, .f32⟩
  | .hbm, ⟨42, _⟩ => ⟨S32768x256x8, .f32⟩
  | .hbm, ⟨43, _⟩ => ⟨S32768x2048, .f32⟩
  | .hbm, ⟨44, _⟩ => ⟨S32768x128, .f32⟩
  | .hbm, ⟨45, _⟩ => ⟨S_, .f32⟩
  | .hbm, ⟨46, _⟩ => ⟨S32768, .f32⟩
  | .hbm, ⟨47, _⟩ => ⟨S32768x1, .f32⟩
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_6 : Ref sig .tc := ⟨.hbm, 45, rfl⟩
abbrev main_v36 : Ref sig .tc := ⟨.hbm, 46, rfl⟩
abbrev main_v37 : Ref sig .tc := ⟨.hbm, 47, rfl⟩

abbrev nD : Nat := 1
abbrev τ : Topo := Topo.v7x

variable {F : FTy → Type} [FloatOps F]

class Facts₀ : Prop where
  bcast_S_S32768x256 : S_.BroadcastsInDim S32768x256 (![] : Fin 0 → Fin S32768x256.rank)
  bcast_S32768x256_S32768x256x1_0_1 : S32768x256.BroadcastsInDim S32768x256x1 (![0, 1] : Fin 2 → Fin S32768x256x1.rank)
  concatenates_S32768x256x1_S32768x256x1_S32768x256x1_S32768x256x1_S32768x256x1_S32768x256x1_S32768x256x1_S32768x256x1_S32768x256x8_d2 : Shape.Concatenates [S32768x256x1, S32768x256x1, S32768x256x1, S32768x256x1, S32768x256x1, S32768x256x1, S32768x256x1, S32768x256x1] S32768x256x8 2
  shapeCasts_S32768x256x8_S32768x2048 : S32768x256x8.ShapeCasts S32768x2048
  reducesTo_S32768x128_S32768_d1 : S32768x128.ReducesTo [1] S32768
  h_S_ : 0 < S_.numel
  bcast_S32768_S32768x1_0 : S32768.BroadcastsInDim S32768x1 (![0] : Fin 1 → Fin S32768x1.rank)
  dot_S32768x2048_S128x2048_S32768x128_1_1_0_0_n_n_wf : DotDims.WF S32768x2048 S128x2048 S32768x128 [1] [1] [0] [0] [] []

variable [Facts₀]

def dot_S32768x2048_S128x2048_S32768x128_1_1_0_0_n_n : DotDims S32768x2048 S128x2048 S32768x128 where
  lhsContracting := [1]
  rhsContracting := [1]
  lhsNonContracting := [0]
  rhsNonContracting := [0]
  lhsBatch := []
  rhsBatch := []
  wf := dot_S32768x2048_S128x2048_S32768x128_1_1_0_0_n_n_wf

class Facts : Prop extends Facts₀ where

variable [Facts]
-- ==== Proof.ChebLaw.lean ====
/-
  The mathematics of the certificate, with no program in sight.

  Both programs evaluate, for one row x of 256 inputs and a coefficient table c of 128 neurons by 2048 features,
  the number  ∑ₙ ∑_f X(f) · c(n, f)  where the feature X(8k + d) is the Chebyshev polynomial T_d at x(k), built by the
  recurrence T₀ = 1, T₁ = x, T_d = (2·x)·T_{d-1} - T_{d-2}. The reference contracts the 2048 features against each neuron
  and then adds the neurons. The kernel first adds the neurons of each feature column, w(d, k) = ∑ₙ c(n, 8k + d), then
  for each degree d adds T_d(x(k)) · w(d, k) over the 256 inputs, and adds the eight degrees. The two arrangements agree
  by distributivity, which on the extended reals needs every entry finite: under that hypothesis each side is the
  coercion of a real number and the identity is one about finite real sums regrouped along f = 8k + d.
-/
import Idealize.ShloMosaic.PureOps.Ideal
import Idealize.ShloMosaic.PureOps.Ideal.Laws
import Mathlib.Algebra.BigOperators.Fin
import Mathlib.Logic.Equiv.Fin.Basic

noncomputable section

namespace Cert.ChebLaw

open Idealize.ShloMosaic

/-! ## The three literals -/

/-- The pattern of 1.0 denotes the real 1. -/
theorem one_eq : Ideal.ofBits .f32 0x3F800000#32 = ((1 : ℝ) : EReal) := by
  simp [Ideal.ofBits, Ideal.ieee, -EReal.coe_mul]; norm_num

/-- The pattern of 2.0 denotes the real 2. -/
theorem two_eq : Ideal.ofBits .f32 0x40000000#32 = ((2 : ℝ) : EReal) := by
  simp [Ideal.ofBits, Ideal.ieee, -EReal.coe_mul]; norm_num

/-- The pattern of +0.0 denotes the real 0. -/
theorem zero_eq : Ideal.ofBits .f32 0x00000000#32 = ((0 : ℝ) : EReal) := by
  rw [Ideal.ofBits_zero_f32]; rfl

/-! ## The polynomials, on the extended reals as the programs spell them, and on the reals -/

abbrev one : EReal := Ideal.ofBits .f32 0x3F800000#32
abbrev two : EReal := Ideal.ofBits .f32 0x40000000#32
abbrev zero : EReal := Ideal.ofBits .f32 0x00000000#32

def T2 (x : EReal) : EReal := two * x * x - one
def T3 (x : EReal) : EReal := two * x * T2 x - x
def T4 (x : EReal) : EReal := two * x * T3 x - T2 x
def T5 (x : EReal) : EReal := two * x * T4 x - T3 x
def T6 (x : EReal) : EReal := two * x * T5 x - T4 x
def T7 (x : EReal) : EReal := two * x * T6 x - T5 x

/-- T_d for d = 0 … 7. -/
def cheb (d : Fin 8) (x : EReal) : EReal :=
  match d with
  | ⟨0, _⟩ => one
  | ⟨1, _⟩ => x
  | ⟨2, _⟩ => T2 x
  | ⟨3, _⟩ => T3 x
  | ⟨4, _⟩ => T4 x
  | ⟨5, _⟩ => T5 x
  | ⟨6, _⟩ => T6 x
  | ⟨7, _⟩ => T7 x

def R2 (x : ℝ) : ℝ := 2 * x * x - 1
def R3 (x : ℝ) : ℝ := 2 * x * R2 x - x
def R4 (x : ℝ) : ℝ := 2 * x * R3 x - R2 x
def R5 (x : ℝ) : ℝ := 2 * x * R4 x - R3 x
def R6 (x : ℝ) : ℝ := 2 * x * R5 x - R4 x
def R7 (x : ℝ) : ℝ := 2 * x * R6 x - R5 x

def chebR (d : Fin 8) (x : ℝ) : ℝ :=
  match d with
  | ⟨0, _⟩ => 1
  | ⟨1, _⟩ => x
  | ⟨2, _⟩ => R2 x
  | ⟨3, _⟩ => R3 x
  | ⟨4, _⟩ => R4 x
  | ⟨5, _⟩ => R5 x
  | ⟨6, _⟩ => R6 x
  | ⟨7, _⟩ => R7 x

theorem T2_coe (r : ℝ) : T2 (r : EReal) = ((R2 r : ℝ) : EReal) := by
  simp only [T2, R2, one, two, one_eq, two_eq, EReal.coe_sub, EReal.coe_mul]
theorem T3_coe (r : ℝ) : T3 (r : EReal) = ((R3 r : ℝ) : EReal) := by
  simp only [T3, R3, T2_coe, two, two_eq, EReal.coe_sub, EReal.coe_mul]
theorem T4_coe (r : ℝ) : T4 (r : EReal) = ((R4 r : ℝ) : EReal) := by
  simp only [T4, R4, T2_coe, T3_coe, two, two_eq, EReal.coe_sub, EReal.coe_mul]
theorem T5_coe (r : ℝ) : T5 (r : EReal) = ((R5 r : ℝ) : EReal) := by
  simp only [T5, R5, T3_coe, T4_coe, two, two_eq, EReal.coe_sub, EReal.coe_mul]
theorem T6_coe (r : ℝ) : T6 (r : EReal) = ((R6 r : ℝ) : EReal) := by
  simp only [T6, R6, T4_coe, T5_coe, two, two_eq, EReal.coe_sub, EReal.coe_mul]
theorem T7_coe (r : ℝ) : T7 (r : EReal) = ((R7 r : ℝ) : EReal) := by
  simp only [T7, R7, T5_coe, T6_coe, two, two_eq, EReal.coe_sub, EReal.coe_mul]

/-- At a real argument every T_d is a real number. -/
theorem cheb_coe (d : Fin 8) (r : ℝ) : cheb d (r : EReal) = ((chebR d r : ℝ) : EReal) := by
  match d with
  | ⟨0, _⟩ => exact one_eq
  | ⟨1, _⟩ => rfl
  | ⟨2, _⟩ => exact T2_coe r
  | ⟨3, _⟩ => exact T3_coe r
  | ⟨4, _⟩ => exact T4_coe r
  | ⟨5, _⟩ => exact T5_coe r
  | ⟨6, _⟩ => exact T6_coe r
  | ⟨7, _⟩ => exact T7_coe r

/-! ## Finite sums of reals inside the extended reals -/

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The two arrangements -/

/-- Feature column 8k + d: input k, degree d. -/
def col (k : Fin 256) (d : Fin 8) : Fin 2048 := ⟨8 * k.val + d.val, by omega⟩

/-- The kernel's weight w(d, k): the neurons of feature column 8k + d added up, from zero. -/
def wsum (c : Fin 128 → Fin 2048 → EReal) (d : Fin 8) (k : Fin 256) : EReal := zero + ∑ n : Fin 128, c n (col k d)

/-- The kernel's sum for degree d over the 256 inputs of the row, against a weight table w(d, k). -/
def laneW (x : Fin 256 → EReal) (w : Fin 8 → Fin 256 → EReal) (d : Fin 8) : EReal :=
  ∑ k : Fin 256, cheb d (x k) * w d k

/-- The eight degrees added in order, against a weight table: what one row of a kernel block holds. -/
def kformW (x : Fin 256 → EReal) (w : Fin 8 → Fin 256 → EReal) : EReal :=
  laneW x w 0 + laneW x w 1 + laneW x w 2 + laneW x w 3 + laneW x w 4 + laneW x w 5 + laneW x w 6 + laneW x w 7

/-- The kernel's sum for degree d with the weights the host computes from the table. -/
def lane (x : Fin 256 → EReal) (c : Fin 128 → Fin 2048 → EReal) (d : Fin 8) : EReal := laneW x (wsum c) d

/-- The kernel's arrangement. -/
def kform (x : Fin 256 → EReal) (c : Fin 128 → Fin 2048 → EReal) : EReal := kformW x (wsum c)

/-- The reference's feature f of the row: T_{f mod 8} at input f / 8. -/
def feat (x : Fin 256 → EReal) (f : Fin 2048) : EReal := cheb ⟨f.val % 8, by omega⟩ (x ⟨f.val / 8, by omega⟩)

/-- The reference's arrangement: each neuron's contraction over the features, the neurons added up from zero. -/
def rform (x : Fin 256 → EReal) (c : Fin 128 → Fin 2048 → EReal) : EReal :=
  zero + ∑ n : Fin 128, ∑ f : Fin 2048, feat x f * c n f

/-! ## The law -/

/-- (k, d) ↦ 8k + d numbers the 2048 feature columns. -/
def colEquiv : Fin 256 × Fin 8 ≃ Fin 2048 := finProdFinEquiv.trans (finCongr (by norm_num : 256 * 8 = 2048))

theorem colEquiv_apply (k : Fin 256) (d : Fin 8) : colEquiv (k, d) = col k d :=
  Fin.ext (by show d.val + 8 * k.val = 8 * k.val + d.val; omega)

/-- Over the reals: adding the neurons first and the features second is adding the features first and the neurons second,
    the features regrouped along f = 8k + d. -/
theorem real_law (a : Fin 8 → Fin 256 → ℝ) (cr : Fin 128 → Fin 2048 → ℝ) :
    ∑ d : Fin 8, ∑ k : Fin 256, a d k * (0 + ∑ n : Fin 128, cr n (col k d))
      = 0 + ∑ n : Fin 128, ∑ f : Fin 2048, a ⟨f.val % 8, by omega⟩ ⟨f.val / 8, by omega⟩ * cr n f := by
  have h : ∀ n : Fin 128, ∑ f : Fin 2048, a ⟨f.val % 8, by omega⟩ ⟨f.val / 8, by omega⟩ * cr n f
      = ∑ k : Fin 256, ∑ d : Fin 8, a d k * cr n (col k d) := by
    intro n
    rw [← Equiv.sum_comp colEquiv, Fintype.sum_prod_type]
    refine Finset.sum_congr rfl fun k _ => Finset.sum_congr rfl fun d _ => ?_
    rw [colEquiv_apply]
    have e1 : (⟨(col k d).val % 8, by omega⟩ : Fin 8) = d := Fin.ext (by show (8 * k.val + d.val) % 8 = d.val; omega)
    have e2 : (⟨(col k d).val / 8, by omega⟩ : Fin 256) = k := Fin.ext (by show (8 * k.val + d.val) / 8 = k.val; omega)
    rw [e1, e2]
  simp only [zero_add, h, Finset.mul_sum]
  calc ∑ d : Fin 8, ∑ k : Fin 256, ∑ n : Fin 128, a d k * cr n (col k d)
      = ∑ d : Fin 8, ∑ n : Fin 128, ∑ k : Fin 256, a d k * cr n (col k d) :=
        Finset.sum_congr rfl fun d _ => Finset.sum_comm
    _ = ∑ n : Fin 128, ∑ d : Fin 8, ∑ k : Fin 256, a d k * cr n (col k d) := Finset.sum_comm
    _ = ∑ n : Fin 128, ∑ k : Fin 256, ∑ d : Fin 8, a d k * cr n (col k d) :=
        Finset.sum_congr rfl fun n _ => Finset.sum_comm

/-- THE LAW: on a row and a table of finite entries the kernel's arrangement and the reference's are one number. -/
theorem kform_eq_rform (x : Fin 256 → EReal) (c : Fin 128 → Fin 2048 → EReal)
    (hx : ∀ k, ∃ r : ℝ, x k = (r : EReal)) (hc : ∀ n f, ∃ r : ℝ, c n f = (r : EReal)) : kform x c = rform x c := by
  choose xr hxr using hx
  choose cr hcr using hc
  obtain rfl : x = fun k => (xr k : EReal) := funext hxr
  obtain rfl : c = fun n f => (cr n f : EReal) := funext fun n => funext fun f => hcr n f
  have hl : ∀ d : Fin 8, lane (fun k => (xr k : EReal)) (fun n f => (cr n f : EReal)) d
      = ((∑ k : Fin 256, chebR d (xr k) * (0 + ∑ n : Fin 128, cr n (col k d)) : ℝ) : EReal) := by
    intro d
    simp only [lane, laneW, wsum, zero, zero_eq, cheb_coe, ← coe_sum, ← EReal.coe_add, ← EReal.coe_mul]
  have hr : rform (fun k => (xr k : EReal)) (fun n f => (cr n f : EReal))
      = ((0 + ∑ n : Fin 128, ∑ f : Fin 2048, chebR ⟨f.val % 8, by omega⟩ (xr ⟨f.val / 8, by omega⟩) * cr n f : ℝ) : EReal) := by
    simp only [rform, feat, zero, zero_eq, cheb_coe, ← coe_sum, ← EReal.coe_add, ← EReal.coe_mul]
  rw [hr, ← real_law (fun d k => chebR d (xr k)) cr, Fin.sum_univ_eight]
  have hl' : ∀ d : Fin 8, laneW (fun k => (xr k : EReal)) (wsum fun n f => (cr n f : EReal)) d
      = ((∑ k : Fin 256, chebR d (xr k) * (0 + ∑ n : Fin 128, cr n (col k d)) : ℝ) : EReal) := hl
  simp only [kform, kformW, hl', ← EReal.coe_add]

end Cert.ChebLaw

end
-- ==== Proof.KernelBlock.lean ====
/-
  One row of what a grid point stores. The kernel body's stored block has shape [4096, 1]; its entry in row r is the sum,
  over the eight degrees in order, of the lane sum over the 256 inputs of T_d(x(r, k)) · w(d, k), where x is the point's
  [4096, 256] block of the input and w the [8, 256] weight block (row d of it re-laid as a row and broadcast down the
  4096 rows). The generated value leg already states the stored block as one function of the two loads; here that
  function is read at a row: each lane reduction as a finite sum, each re-laid weight row at its entry, each T_d
  entry by entry.
-/
import proofs.«157720_j14585708937626_1_alg».proof.Proof.Gen.KernelIdeal.Value
import proofs.«157720_j14585708937626_1_alg».proof.Proof.ChebLaw
import Idealize.ShloMosaic.Lib.ValueLayout
import Idealize.ShloMosaic.Lib.ValueIdx
import Idealize.ShloMosaic.PureOps.Ideal.Laws

noncomputable section

namespace Cert.KernelIdeal.Block

open Cert.KernelIdeal Cert.KernelIdeal.Gen Idealize.ShloMosaic Idealize.ShloMosaic.ValueIdx Cert.ChebLaw

/-- Row o of the weight block, cut out, re-laid as a [1, 256] row and broadcast down 4096 rows: entry (r, k) is w(o, k). -/
theorem wrow_apply (P0 : Vec Ideal S8x256 .f32) (o : Nat) (d : Fin 8) (hd : d.val = o)
    (h0 : S8x256.ShapeCasts S8x256) (hs : S8x256.Slices ![o, 0] S1x256) (h1 : S1x256.ShapeCasts S256)
    (h2 : S256.ShapeCasts S1x256) (h3 : S1x256.Broadcasts S4096x256) (r : Fin 4096) (k : Fin 256) :
    broadcastTo S4096x256 (shapeCast S1x256 (shapeCast S256 (extractStridedSlice S1x256 ![o, 0] (shapeCast S8x256 P0 h0) hs) h1) h2) h3 (ix2 r k)
      = P0 (ix2 d k) := by
  rw [broadcastTo_1b_ab_apply, shapeCast_a_1a_apply, shapeCast_1a_a_apply, shapeCast_self,
    slice2_axis0_apply o P0 hs (0 : Fin 1) k d (by rw [hd]; rfl)]

/-- A lane reduction of a product over the 256 columns, read at row r, is the finite sum over the row. -/
theorem lane_apply (T W : FVec Ideal S4096x256 .f32) (hred : S4096x256.Reduces [1] S4096) (hφ : FKind.Formats .f32)
    (hacc : (0x00000000#32 : BitVec 32) = 0x00000000#32) (r : Fin 4096) :
    multiReduction .add [1] S4096 (mulf T W) 0x00000000#32 hred hφ hacc (ix1 r)
      = ∑ k : Fin 256, T (ix2 r k) * W (ix2 r k) := by
  refine (Ideal.multiReduction_add_single (mulf T W) 0x00000000#32 hred hφ hacc (ix1 r)).trans ?_
  refine Finset.sum_congr rfl fun k _ => ?_
  have e : hred.lift (ix1 r) k = ix2 r k :=
    funext fun a => Fin.ext (by match a with | ⟨0, _⟩ => rfl | ⟨1, _⟩ => rfl)
  rw [e]; rfl

/-- One degree's lane reduction in the stored block, read at row r: the sum over the row of T_d(x(r, k)) · w(d, k), given that
    the array T multiplied in is T_d of the x block entry by entry. -/
theorem lane_eq (P0 : Vec Ideal S8x256 .f32) (P1 : Vec Ideal S4096x256 .f32) (T : FVec Ideal S4096x256 .f32)
    (o : Nat) (d : Fin 8) (hd : d.val = o)
    (h0 : S8x256.ShapeCasts S8x256) (hs : S8x256.Slices ![o, 0] S1x256) (h1 : S1x256.ShapeCasts S256)
    (h2 : S256.ShapeCasts S1x256) (h3 : S1x256.Broadcasts S4096x256)
    (hred : S4096x256.Reduces [1] S4096) (hφ : FKind.Formats .f32) (hacc : (0x00000000#32 : BitVec 32) = 0x00000000#32)
    (r : Fin 4096) (hT : ∀ k : Fin 256, T (ix2 r k) = cheb d (P1 (ix2 r k))) :
    multiReduction .add [1] S4096 (mulf T (broadcastTo S4096x256 (shapeCast S1x256 (shapeCast S256
        (extractStridedSlice S1x256 ![o, 0] (shapeCast S8x256 P0 h0) hs) h1) h2) h3)) 0x00000000#32 hred hφ hacc (ix1 r)
      = laneW (fun k => P1 (ix2 r k)) (fun d k => P0 (ix2 d k)) d := by
  refine (lane_apply T _ hred hφ hacc r).trans ?_
  unfold laneW
  exact Finset.sum_congr rfl fun k _ => by rw [hT, wrow_apply P0 o d hd]

/-- The stored block at row r is the eight degrees' lane sums added in order. -/
theorem E2_row (P0 : Vec Ideal S8x256 .f32) (P1 : Vec Ideal S4096x256 .f32) (r : Fin 4096) (u : Fin 1) :
    Value.E2 (F := Ideal) P0 P1 (ix2 r u) = kformW (fun k => P1 (ix2 r k)) (fun d k => P0 (ix2 d k)) := by
  have hi0 : Value.ix2_0 (ix2 r u) = ix1 r := funext fun a => by match a with | ⟨0, _⟩ => rfl
  have hi1 : Value.ix2_1 (ix2 r u) = ix1 r := funext fun a => by match a with | ⟨0, _⟩ => rfl
  have hi2 : Value.ix2_2 (ix2 r u) = ix1 r := funext fun a => by match a with | ⟨0, _⟩ => rfl
  have hi3 : Value.ix2_3 (ix2 r u) = ix1 r := funext fun a => by match a with | ⟨0, _⟩ => rfl
  have hi4 : Value.ix2_4 (ix2 r u) = ix1 r := funext fun a => by match a with | ⟨0, _⟩ => rfl
  have hi5 : Value.ix2_5 (ix2 r u) = ix1 r := funext fun a => by match a with | ⟨0, _⟩ => rfl
  have hi6 : Value.ix2_6 (ix2 r u) = ix1 r := funext fun a => by match a with | ⟨0, _⟩ => rfl
  have hi7 : Value.ix2_7 (ix2 r u) = ix1 r := funext fun a => by match a with | ⟨0, _⟩ => rfl
  dsimp only [Value.E2]
  rw [hi0, hi1, hi2, hi3, hi4, hi5, hi6, hi7]
  unfold kformW
  congr 1; congr 1; congr 1; congr 1; congr 1; congr 1; congr 1
  · exact lane_eq P0 P1 _ 0 0 rfl _ _ _ _ _ _ _ _ r (fun k => rfl)
  · exact lane_eq P0 P1 _ 1 1 rfl _ _ _ _ _ _ _ _ r (fun k => rfl)
  · exact lane_eq P0 P1 _ 2 2 rfl _ _ _ _ _ _ _ _ r (fun k => rfl)
  · exact lane_eq P0 P1 _ 3 3 rfl _ _ _ _ _ _ _ _ r (fun k => rfl)
  · exact lane_eq P0 P1 _ 4 4 rfl _ _ _ _ _ _ _ _ r (fun k => rfl)
  · exact lane_eq P0 P1 _ 5 5 rfl _ _ _ _ _ _ _ _ r (fun k => rfl)
  · exact lane_eq P0 P1 _ 6 6 rfl _ _ _ _ _ _ _ _ r (fun k => rfl)
  · exact lane_eq P0 P1 _ 7 7 rfl _ _ _ _ _ _ _ _ r (fun k => rfl)

end Cert.KernelIdeal.Block

end
-- ==== Proof.KernelArray.lean ====
/-
  The kernel's result as one function of the two arguments. Grid point t (of 8) is handed rows 4096·t … 4096·t + 4095 of
  the input and the whole [8, 256] weight array the host operations before the launch computed: the neurons of the
  coefficient table added up from zero, the 2048 sums laid out as [256, 8] and transposed, so that entry (d, k) is
  w(d, k) = ∑ₙ c(n, 8k + d). The point writes back a [4096, 1] block whose row is the kernel's arrangement over the
  matching row of the input; the eight blocks tile the [32768, 1] result. In order: the index maps decided over the grid,
  what a point writes back as a block of one whole-array function, the cover, the final array, the run.
-/
import proofs.«157720_j14585708937626_1_alg».proof.Proof.Gen.KernelIdeal.Value
import proofs.«157720_j14585708937626_1_alg».proof.Proof.KernelBlock
import Idealize.ShloMosaic.Lib.Pipeline.Value
import Idealize.ShloMosaic.Lib.ValueLayout
import Idealize.ShloMosaic.Lib.StableHlo.Run
import Idealize.ShloMosaic.PureOps.Ideal.Laws

noncomputable section

namespace Cert.KernelIdeal.Whole

open Cert.KernelIdeal Cert.KernelIdeal.Gen Idealize.ShloMosaic Idealize.ShloMosaic.TcCoe Idealize.SL.Sem
open Idealize.ShloMosaic.ValueIdx Cert.ChebLaw
open Idealize.ShloMosaic.Pipeline (Dat)

variable (m : (ℓ : Loc nD τ sig) → Buf (Elt Ideal) ℓ) (ρ : Dev nD → PrngReg)

/-! ## The arrays and blocks, at their literal types -/

abbrev xarr (c : Dev nD) : Vec Ideal S32768x256 .f32 := m ((c : Thread nD τ).loc main_arg0)
abbrev carr (c : Dev nD) : Vec Ideal S128x2048 .f32 := m ((c : Thread nD τ).loc main_arg1)
abbrev warr (c : Dev nD) : Vec Ideal S8x256 .f32 := V m c main_v2
abbrev xblk (c : Dev nD) (t : Fin cfg0.N) : Vec Ideal S4096x256 .f32 := iblk m c 0 t
abbrev wblk (c : Dev nD) (t : Fin cfg0.N) : Vec Ideal S8x256 .f32 := iblk m c 1 t

/-- The result array: row R holds the kernel's arrangement over row R of the input and the whole table. -/
def G (c : Dev nD) : Vec Ideal S32768x1 .f32 :=
  fun i => kform (fun k => xarr m c (ix2 (n0 := 32768) (i 0) k)) (fun n f => carr m c (ix2 n f))

/-! ## The weight array the host operations leave -/

theorem warr_at (c : Dev nD) (d : Fin 8) (k : Fin 256) :
    warr m c (ix2 d k) = wsum (fun n f => carr m c (ix2 n f)) d k := by
  have e : warr m c = transpose S8x256 [1, 0] (shapeCast S256x8 (Host.reduceAdd (F := Ideal) (carr m c)
      (constant (F := Ideal) S_ .f32 0x00000000#32) reducesTo_S128x2048_S2048_d0 h_S_) shapeCasts_S2048_S256x8)
      transposes_S256x8_S8x256_1_0 := by
    dsimp only [warr, Gen.V, Gen.hostOps0]; after_results; rfl
  rw [e, transpose_ix2_apply]
  rw [shapeCast_apply _ shapeCasts_S2048_S256x8 (ix2 k d) (ix1 (col k d)) (by
    rw [Shape.rowMajor_val_one, Shape.rowMajor_val_two]; show 8 * k.val + d.val = k.val * 8 + d.val; omega)]
  simp only [Host.reduceAdd, Ideal.hostReduceAdd_def]
  rw [Ideal.hostReduceAdd_single reducesTo_S128x2048_S2048_d0 (by decide)]
  unfold wsum
  refine congrArg₂ (· + ·) rfl (Finset.sum_congr rfl fun n _ => ?_)
  exact congrArg (carr m c) (funext fun a => Fin.ext (by match a with | ⟨0, _⟩ => rfl | ⟨1, _⟩ => rfl))

/-! ## The blocks as parts of the arrays -/

/-- The printed index maps over the grid: point t's input block and output block sit at block row t, the weight block
    at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row r of point t's input block is row 4096·t + r of the input. -/
theorem xblk_at (c : Dev nD) (t : Fin cfg0.N) (r : Fin 4096) (k : Fin 256) (R : Fin 32768)
    (hR : R.val = t.val * 4096 + r.val) : xblk m c t (ix2 r k) = xarr m c (ix2 R k) := by
  obtain ⟨e0, e1, -, -, -, -⟩ := idx_facts t
  unfold xblk iblk
  rw [View.read_apply]
  refine (congrFun (V_main_arg0 m c) _).trans ?_
  show m ((c : Thread nD τ).loc main_arg0) _ = m ((c : Thread nD τ).loc main_arg0) _
  congr 1
  funext a
  apply Fin.ext
  match a with
  | ⟨0, _⟩ => show win0_0.index t (0 : Fin 2) * 4096 + 1 * r.val = R.val; rw [e0, hR]; omega
  | ⟨1, _⟩ => show win0_0.index t (1 : Fin 2) * 256 + 1 * k.val = k.val; rw [e1]; omega

/-- Every point's weight block is the whole weight array. -/
theorem wblk_at (c : Dev nD) (t : Fin cfg0.N) (d : Fin 8) (k : Fin 256) : wblk m c t (ix2 d k) = warr m c (ix2 d k) := by
  obtain ⟨-, -, e2, e3, -, -⟩ := idx_facts t
  unfold wblk iblk
  rw [View.read_apply]
  show V m c main_v2 _ = V m c main_v2 _
  congr 1
  funext a
  apply Fin.ext
  match a with
  | ⟨0, _⟩ => show win0_1.index t (0 : Fin 2) * 8 + 1 * d.val = d.val; rw [e2]; omega
  | ⟨1, _⟩ => show win0_1.index t (1 : Fin 2) * 256 + 1 * k.val = k.val; rw [e3]; omega

/-! ## What a point writes back -/

theorem hz : (![0, 0] : Fin 2 → Nat) = fun _ => 0 := funext fun a => by fin_cases a <;> rfl

/-- The body's result from two loaded blocks, at an entry of row y 0: the eight lane sums of that row added in order. -/
theorem out_row (xb : Vec Ideal S4096x256 .f32) (wb : Vec Ideal S8x256 .f32) (y : S4096x1.Idx) :
    out0_2 xb wb y = kformW (fun k => xb (ix2 (n0 := 4096) (y 0) k)) (fun d k => wb (ix2 d k)) := by
  unfold out0_2
  rw [View.ld_unit_zero (S := S4096x256) hz, View.ld_unit_zero (S := S8x256) hz, Value.canon2_eq]
  obtain ⟨r, u, rfl⟩ : ∃ (r : Fin 4096) (u : Fin 1), y = ix2 r u := ⟨y 0, y 1, eq_ix2 y⟩
  exact Block.E2_row wb xb r u

/-- WHAT POINT t WRITES BACK is block t of the result function. -/
theorem flushed_eq (c : Dev nD) (t : Fin cfg0.N) :
    (dats m 0 c).flushed 2 t = ((cfg0.win 2).blk t).view.read (Elt Ideal) (G m c) := by
  rw [Value.flushed2]
  obtain ⟨-, -, -, -, e4, e5⟩ := idx_facts t
  funext j
  show out0_2 (xblk m c t) (wblk m c t) j = G m c (((cfg0.win 2).blk t).view.emb j)
  refine (out_row (xblk m c t) (wblk m c t) j).trans ?_
  unfold G kform
  congr 1
  · funext k
    exact xblk_at m c t _ k _ (by
      show win0_2.index t (0 : Fin 2) * 4096 + 1 * (j 0).val = t.val * 4096 + (j 0).val; rw [e4]; omega)
  · funext d k
    exact (wblk_at m c t d k).trans (warr_at m c d k)

/-! ## The blocks tile the result -/

theorem mem_blk (t : Fin cfg0.N) (i : S32768x1.Idx) :
    i ∈ ((cfg0.win 2).blk t).view.set ↔ ∀ a : Fin 2, win0_2.index t a * S4096x1.size a ≤ (i a).val
      ∧ (i a).val < win0_2.index t a * S4096x1.size a + S4096x1.size a := by
  show i ∈ ((View.whole main_v3).slice (win0_2.rect t)).set ↔ _
  rw [View.set_slice_whole, Rect.mem_set_unit]
  exact Iff.rfl

theorem idx_onto : ∀ q : Fin 8, ∃ t : Fin cfg0.N, win0_2.index t = ![q.val, 0] :=
  (by decide +kernel : ∀ q : Fin 8, ∃ t : Fin grid0.N, win0_2.index t = ![q.val, 0])

/-- Row R of the result is in the block of point R / 4096. -/
theorem cover (i : S32768x1.Idx) :
    ∃ t : Fin cfg0.N, (cfg0.win 2).flush t = true ∧ i ∈ ((cfg0.win 2).blk t).view.set := by
  have hi0 : (i 0).val < 32768 := (i 0).isLt
  have hi1 : (i 1).val < 1 := (i 1).isLt
  obtain ⟨t, ht⟩ := idx_onto ⟨(i 0).val / 4096, by omega⟩
  have q0 : win0_2.index t (0 : Fin 2) = (i 0).val / 4096 := congrFun ht 0
  have q1 : win0_2.index t (1 : Fin 2) = 0 := congrFun ht 1
  refine ⟨t, flush0_2 t, ?_⟩
  rw [mem_blk]
  intro a
  match a with
  | ⟨0, _⟩ =>
    show win0_2.index t (0 : Fin 2) * 4096 ≤ (i 0).val ∧ (i 0).val < win0_2.index t (0 : Fin 2) * 4096 + 4096
    omega
  | ⟨1, _⟩ =>
    show win0_2.index t (1 : Fin 2) * 1 ≤ (i 1).val ∧ (i 1).val < win0_2.index t (1 : Fin 2) * 1 + 1
    omega

/-- THE RESULT ARRAY after the run. -/
theorem final (c : Dev nD) : (dats m 0 c).arrAt 2 cfg0.N = G m c :=
  (dats m 0 c).arrAt_eq_of_cover 2 (G m c) (fun t _ => flushed_eq m c t) cover

/-- The run, read: the result array holds the kernel's arrangement row by row, the arguments unchanged. -/
theorem run : θ_run defs (onTc (τ := τ) (main (F := Ideal))) ⟨m, fun _ => 0, ρ⟩ fun r => ∀ c : Dev nD,
      r.2.mem ((c : Thread nD τ).loc main_v3) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Whole

end
-- ==== Proof.RefRow.lean ====
/-
  The reference, read at a row. Its program builds T₀ … T₇ of the whole input by the recurrence, lays them side by side
  as a [32768, 256, 8] array (degree last), flattens the last two axes so that column f = 8k + d holds T_d(x(·, k)),
  contracts the 2048 columns against each of the 128 neurons and adds the neurons up from zero. Each stage is read at
  an entry, and the result's entry in row r is the reference's arrangement of the law.
-/
import proofs.«157720_j14585708937626_1_alg».proof.Proof.Gen.ReferenceIdeal.Read
import proofs.«157720_j14585708937626_1_alg».proof.Proof.ChebLaw
import Idealize.ShloMosaic.Lib.Pipeline.Value
import Idealize.ShloMosaic.Lib.ValueIdx

noncomputable section

namespace Cert.ReferenceIdeal.RowValue

open Cert.ReferenceIdeal Cert.ReferenceIdeal.Gen Cert.ReferenceIdeal.Read Idealize.ShloMosaic Idealize.ShloMosaic.ValueIdx Cert.ChebLaw

variable (x0 : (⟨S32768x256, .f32⟩ : BufTy).Contents (Elt Ideal)) (x1 : (⟨S128x2048, .f32⟩ : BufTy).Contents (Elt Ideal))

/-! ## The recurrence, entry by entry -/

theorem v0_at (i : S32768x256.Idx) : val_main_v0 (F := Ideal) i = one := by
  rw [val_main_v0_apply, val_main_cst_apply]; rfl

theorem v4_at (i : S32768x256.Idx) : val_main_v4 (F := Ideal) x0 i = T2 (x0 i) := by
  rw [val_main_v4_apply, val_main_v3_apply, val_main_v2_apply, val_main_v1_apply, val_main_cst_0_apply, v0_at]; rfl

theorem v8_at (i : S32768x256.Idx) : val_main_v8 (F := Ideal) x0 i = T3 (x0 i) := by
  rw [val_main_v8_apply, val_main_v7_apply, val_main_v6_apply, val_main_v5_apply, val_main_cst_1_apply, v4_at]; rfl

theorem v12_at (i : S32768x256.Idx) : val_main_v12 (F := Ideal) x0 i = T4 (x0 i) := by
  rw [val_main_v12_apply, val_main_v11_apply, val_main_v10_apply, val_main_v9_apply, val_main_cst_2_apply, v8_at, v4_at]; rfl

theorem v16_at (i : S32768x256.Idx) : val_main_v16 (F := Ideal) x0 i = T5 (x0 i) := by
  rw [val_main_v16_apply, val_main_v15_apply, val_main_v14_apply, val_main_v13_apply, val_main_cst_3_apply, v12_at, v8_at]; rfl

theorem v20_at (i : S32768x256.Idx) : val_main_v20 (F := Ideal) x0 i = T6 (x0 i) := by
  rw [val_main_v20_apply, val_main_v19_apply, val_main_v18_apply, val_main_v17_apply, val_main_cst_4_apply, v16_at, v12_at]; rfl

theorem v24_at (i : S32768x256.Idx) : val_main_v24 (F := Ideal) x0 i = T7 (x0 i) := by
  rw [val_main_v24_apply, val_main_v23_apply, val_main_v22_apply, val_main_v21_apply, val_main_cst_5_apply, v20_at, v16_at]; rfl

/-! ## Each T_d given a trailing unit axis -/

theorem i25 (r : Fin 32768) (k : Fin 256) (z : Fin 1) : idx_main_v25 (ix3 r k z) = ix2 r k :=
  funext fun a => by match a with | ⟨0, _⟩ => rfl | ⟨1, _⟩ => rfl
theorem i26 (r : Fin 32768) (k : Fin 256) (z : Fin 1) : idx_main_v26 (ix3 r k z) = ix2 r k :=
  funext fun a => by match a with | ⟨0, _⟩ => rfl | ⟨1, _⟩ => rfl
theorem i27 (r : Fin 32768) (k : Fin 256) (z : Fin 1) : idx_main_v27 (ix3 r k z) = ix2 r k :=
  funext fun a => by match a with | ⟨0, _⟩ => rfl | ⟨1, _⟩ => rfl
theorem i28 (r : Fin 32768) (k : Fin 256) (z : Fin 1) : idx_main_v28 (ix3 r k z) = ix2 r k :=
  funext fun a => by match a with | ⟨0, _⟩ => rfl | ⟨1, _⟩ => rfl
theorem i29 (r : Fin 32768) (k : Fin 256) (z : Fin 1) : idx_main_v29 (ix3 r k z) = ix2 r k :=
  funext fun a => by match a with | ⟨0, _⟩ => rfl | ⟨1, _⟩ => rfl
theorem i30 (r : Fin 32768) (k : Fin 256) (z : Fin 1) : idx_main_v30 (ix3 r k z) = ix2 r k :=
  funext fun a => by match a with | ⟨0, _⟩ => rfl | ⟨1, _⟩ => rfl
theorem i31 (r : Fin 32768) (k : Fin 256) (z : Fin 1) : idx_main_v31 (ix3 r k z) = ix2 r k :=
  funext fun a => by match a with | ⟨0, _⟩ => rfl | ⟨1, _⟩ => rfl
theorem i32 (r : Fin 32768) (k : Fin 256) (z : Fin 1) : idx_main_v32 (ix3 r k z) = ix2 r k :=
  funext fun a => by match a with | ⟨0, _⟩ => rfl | ⟨1, _⟩ => rfl

theorem v25_at (r : Fin 32768) (k : Fin 256) (z : Fin 1) : val_main_v25 (F := Ideal) (ix3 r k z) = cheb 0 (x0 (ix2 r k)) := by
  rw [val_main_v25_apply, v0_at]; rfl
theorem v26_at (r : Fin 32768) (k : Fin 256) (z : Fin 1) : val_main_v26 (F := Ideal) x0 (ix3 r k z) = cheb 1 (x0 (ix2 r k)) := by
  rw [val_main_v26_apply, i26]; rfl
theorem v27_at (r : Fin 32768) (k : Fin 256) (z : Fin 1) : val_main_v27 (F := Ideal) x0 (ix3 r k z) = cheb 2 (x0 (ix2 r k)) := by
  rw [val_main_v27_apply, i27, v4_at]; rfl
theorem v28_at (r : Fin 32768) (k : Fin 256) (z : Fin 1) : val_main_v28 (F := Ideal) x0 (ix3 r k z) = cheb 3 (x0 (ix2 r k)) := by
  rw [val_main_v28_apply, i28, v8_at]; rfl
theorem v29_at (r : Fin 32768) (k : Fin 256) (z : Fin 1) : val_main_v29 (F := Ideal) x0 (ix3 r k z) = cheb 4 (x0 (ix2 r k)) := by
  rw [val_main_v29_apply, i29, v12_at]; rfl
theorem v30_at (r : Fin 32768) (k : Fin 256) (z : Fin 1) : val_main_v30 (F := Ideal) x0 (ix3 r k z) = cheb 5 (x0 (ix2 r k)) := by
  rw [val_main_v30_apply, i30, v16_at]; rfl
theorem v31_at (r : Fin 32768) (k : Fin 256) (z : Fin 1) : val_main_v31 (F := Ideal) x0 (ix3 r k z) = cheb 6 (x0 (ix2 r k)) := by
  rw [val_main_v31_apply, i31, v20_at]; rfl
theorem v32_at (r : Fin 32768) (k : Fin 256) (z : Fin 1) : val_main_v32 (F := Ideal) x0 (ix3 r k z) = cheb 7 (x0 (ix2 r k)) := by
  rw [val_main_v32_apply, i32, v24_at]; rfl

/-! ## The eight laid side by side: entry (r, k, d) is T_d(x(r, k)) -/

theorem stack_at (r : Fin 32768) (k : Fin 256) (d : Fin 8) :
    val_main_v33 (F := Ideal) x0 (ix3 r k d) = cheb d (x0 (ix2 r k)) := by
  unfold val_main_v33
  match d with
  | ⟨0, _⟩ =>
    refine (concatenate_apply_piece (t := S32768x256x8) (2 : Fin 3) _ _ _ 0 ?_ S32768x256x1 _ ?_ rfl 0 ?_ (ix3 r k (0 : Fin 1)) ?_ ?_).trans (v25_at x0 r k 0)
    · exact (by decide : (0 : Nat) < 8)
    · rfl
    · rfl
    · intro b hb
      match b with
      | ⟨0, _⟩ => rfl
      | ⟨1, _⟩ => rfl
      | ⟨2, _⟩ => exact absurd rfl hb
    · rfl
  | ⟨1, _⟩ =>
    refine (concatenate_apply_piece (t := S32768x256x8) (2 : Fin 3) _ _ _ 1 ?_ S32768x256x1 _ ?_ rfl 1 ?_ (ix3 r k (0 : Fin 1)) ?_ ?_).trans (v26_at x0 r k 0)
    · exact (by decide : (1 : Nat) < 8)
    · rfl
    · rfl
    · intro b hb
      match b with
      | ⟨0, _⟩ => rfl
      | ⟨1, _⟩ => rfl
      | ⟨2, _⟩ => exact absurd rfl hb
    · rfl
  | ⟨2, _⟩ =>
    refine (concatenate_apply_piece (t := S32768x256x8) (2 : Fin 3) _ _ _ 2 ?_ S32768x256x1 _ ?_ rfl 2 ?_ (ix3 r k (0 : Fin 1)) ?_ ?_).trans (v27_at x0 r k 0)
    · exact (by decide : (2 : Nat) < 8)
    · rfl
    · rfl
    · intro b hb
      match b with
      | ⟨0, _⟩ => rfl
      | ⟨1, _⟩ => rfl
      | ⟨2, _⟩ => exact absurd rfl hb
    · rfl
  | ⟨3, _⟩ =>
    refine (concatenate_apply_piece (t := S32768x256x8) (2 : Fin 3) _ _ _ 3 ?_ S32768x256x1 _ ?_ rfl 3 ?_ (ix3 r k (0 : Fin 1)) ?_ ?_).trans (v28_at x0 r k 0)
    · exact (by decide : (3 : Nat) < 8)
    · rfl
    · rfl
    · intro b hb
      match b with
      | ⟨0, _⟩ => rfl
      | ⟨1, _⟩ => rfl
      | ⟨2, _⟩ => exact absurd rfl hb
    · rfl
  | ⟨4, _⟩ =>
    refine (concatenate_apply_piece (t := S32768x256x8) (2 : Fin 3) _ _ _ 4 ?_ S32768x256x1 _ ?_ rfl 4 ?_ (ix3 r k (0 : Fin 1)) ?_ ?_).trans (v29_at x0 r k 0)
    · exact (by decide : (4 : Nat) < 8)
    · rfl
    · rfl
    · intro b hb
      match b with
      | ⟨0, _⟩ => rfl
      | ⟨1, _⟩ => rfl
      | ⟨2, _⟩ => exact absurd rfl hb
    · rfl
  | ⟨5, _⟩ =>
    refine (concatenate_apply_piece (t := S32768x256x8) (2 : Fin 3) _ _ _ 5 ?_ S32768x256x1 _ ?_ rfl 5 ?_ (ix3 r k (0 : Fin 1)) ?_ ?_).trans (v30_at x0 r k 0)
    · exact (by decide : (5 : Nat) < 8)
    · rfl
    · rfl
    · intro b hb
      match b with
      | ⟨0, _⟩ => rfl
      | ⟨1, _⟩ => rfl
      | ⟨2, _⟩ => exact absurd rfl hb
    · rfl
  | ⟨6, _⟩ =>
    refine (concatenate_apply_piece (t := S32768x256x8) (2 : Fin 3) _ _ _ 6 ?_ S32768x256x1 _ ?_ rfl 6 ?_ (ix3 r k (0 : Fin 1)) ?_ ?_).trans (v31_at x0 r k 0)
    · exact (by decide : (6 : Nat) < 8)
    · rfl
    · rfl
    · intro b hb
      match b with
      | ⟨0, _⟩ => rfl
      | ⟨1, _⟩ => rfl
      | ⟨2, _⟩ => exact absurd rfl hb
    · rfl
  | ⟨7, _⟩ =>
    refine (concatenate_apply_piece (t := S32768x256x8) (2 : Fin 3) _ _ _ 7 ?_ S32768x256x1 _ ?_ rfl 7 ?_ (ix3 r k (0 : Fin 1)) ?_ ?_).trans (v32_at x0 r k 0)
    · exact (by decide : (7 : Nat) < 8)
    · rfl
    · rfl
    · intro b hb
      match b with
      | ⟨0, _⟩ => rfl
      | ⟨1, _⟩ => rfl
      | ⟨2, _⟩ => exact absurd rfl hb
    · rfl

/-! ## Flattened: column f of row r is feature f of the row -/

theorem feat_at (r : Fin 32768) (f : Fin 2048) :
    val_main_v34 (F := Ideal) x0 (ix2 r f) = feat (fun k => x0 (ix2 r k)) f := by
  rw [val_main_v34_apply]
  have e : idx_main_v34 (ix2 r f) = ix3 r (⟨f.val / 8, by omega⟩ : Fin 256) (⟨f.val % 8, by omega⟩ : Fin 8) :=
    funext fun a => Fin.ext (by
      have hr : r.val < 32768 := r.isLt
      have hf : f.val < 2048 := f.isLt
      match a with
      | ⟨0, _⟩ => show (r.val * 2048 + f.val) / 2048 = r.val; omega
      | ⟨1, _⟩ => show (r.val * 2048 + f.val) / 8 % 256 = f.val / 8; omega
      | ⟨2, _⟩ => show (r.val * 2048 + f.val) % 8 = f.val % 8; omega)
  rw [e, stack_at]; rfl

/-! ## Contracted against the neurons and added up -/

/-- The reference's result in row r is the reference's arrangement over that row of the input and the whole table. -/
theorem ref_row (r : Fin 32768) (u : Fin 1) :
    val_main_v37 (F := Ideal) x0 x1 (ix2 r u) = rform (fun k => x0 (ix2 r k)) (fun n f => x1 (ix2 n f)) := by
  have e37 : idx_main_v37 (ix2 r u) = ix1 r := funext fun a => by match a with | ⟨0, _⟩ => rfl
  rw [val_main_v37_apply, e37, val_main_v36_apply]
  unfold rform
  refine congrArg₂ (· + ·) rfl (Finset.sum_congr rfl fun n _ => ?_)
  have e36 : idx_main_v36 (ix1 r) n = ix2 r n := funext fun a => by match a with | ⟨0, _⟩ => rfl | ⟨1, _⟩ => rfl
  rw [e36, val_main_v35_apply]
  refine Finset.sum_congr rfl fun f _ => ?_
  have el : lidx_main_v35 (ix2 r n) f = ix2 r f := funext fun a => by match a with | ⟨0, _⟩ => rfl | ⟨1, _⟩ => rfl
  have er : ridx_main_v35 (ix2 r n) f = ix2 n f := funext fun a => by match a with | ⟨0, _⟩ => rfl | ⟨1, _⟩ => rfl
  rw [el, er, feat_at]

end Cert.ReferenceIdeal.RowValue

end
-- ==== Proof.Finite.lean ====
/-
  What the precondition says. It is the conjunction of two "all entries satisfy |v| < +inf", one per argument. On the
  extended reals |v| is max v (-v), which is +inf exactly at the two infinities, so each conjunct says that every entry of
  that argument is a real number.
-/
import proofs.«157720_j14585708937626_1_alg».proof.Pre_finite_inputs
import proofs.«157720_j14585708937626_1_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Pre_finite_inputs.Finite

open Cert.Pre_finite_inputs Idealize.ShloMosaic

variable [Facts]

instance : Subsingleton S_.Idx := ⟨fun a b => funext fun d => d.elim0⟩

/-- The pattern 0x7F800000 denotes +inf. -/
theorem inf_eq : Ideal.ofBits .f32 0x7F800000#32 = (⊤ : EReal) := by
  simp [Ideal.ofBits, Ideal.ieee]

/-- An extended real whose absolute value is below +inf is a real number. -/
theorem real_of_abs_lt (x : EReal) (h : Ideal.cmp .olt (max x (-x)) (Ideal.ofBits .f32 0x7F800000#32) = 1#1) :
    ∃ r : ℝ, x = (r : EReal) := by
  rw [inf_eq] at h
  induction x using EReal.rec with
  | bot => simp [Ideal.cmp] at h
  | coe r => exact ⟨r, rfl⟩
  | top => simp [Ideal.cmp] at h

/-- Under the precondition every entry of both arguments is a real number. -/
theorem real_of_pre (x0 : FVec Ideal S32768x256 .f32) (x1 : FVec Ideal S128x2048 .f32)
    (h : fn (F := Ideal) x0 x1 = fun _ => 1#1) :
    (∀ i, ∃ r : ℝ, x0 i = (r : EReal)) ∧ (∀ i, ∃ r : ℝ, x1 i = (r : EReal)) := by
  have h0 := congrFun h ValueIdx.ix0
  dsimp only [fn] at h0
  obtain ⟨ha, hb⟩ := IntOp.andi_eq_one.1 h0
  refine ⟨fun i => ?_, fun i => ?_⟩
  · exact real_of_abs_lt _ (Host.reduce_andi_all _ _ _ _ _ ha i)
  · exact real_of_abs_lt _ (Host.reduce_andi_all _ _ _ _ _ hb i)

end Cert.Pre_finite_inputs.Finite

end
-- ==== Proof.lean ====
/-
  Kernel and reference compute, for every row x of the [32768, 256] input and the [128, 2048] coefficient table c, the
  number ∑ₙ ∑_f X(f) · c(n, f), where feature X(8k + d) is the Chebyshev polynomial T_d at x(k) from the recurrence
  T₀ = 1, T₁ = x, T_d = (2·x)·T_{d-1} - T_{d-2}, d ≤ 7.

  The reference contracts the 2048 features against each neuron and adds the 128 neurons up. The kernel uses that the
  sum over the neurons is linear: the host adds the neurons of each feature column first, w(d, k) = ∑ₙ c(n, 8k + d),
  and the kernel body, on 4096 rows at a time, adds T_d(x(k)) · w(d, k) over the 256 inputs for each degree and then
  adds the eight degrees. Moving the sum over the neurons across the product is distributivity, which fails at the
  infinities of the extended reals; the precondition makes every entry of both arguments a real number, every T_d of a
  real is a real, and so both sides are coercions of real numbers, equal by regrouping a finite sum along f = 8k + d.

  The frames are the generated ones (the reference's is its generated run with the result dropped); the idealization
  rewrote nothing, so it is preserved trivially; the equality of results is assembled from the kernel's run read as one
  function of the arguments, the reference's run read at a row, and the law.
-/
import proofs.«157720_j14585708937626_1_alg».proof.Defs
import proofs.«157720_j14585708937626_1_alg».proof.Proof.Gen.Kernel
import proofs.«157720_j14585708937626_1_alg».proof.Proof.Gen.Kernel.Skeleton
import proofs.«157720_j14585708937626_1_alg».proof.Proof.Gen.Kernel.Launch
import proofs.«157720_j14585708937626_1_alg».proof.Proof.Gen.Kernel.Points
import proofs.«157720_j14585708937626_1_alg».proof.Proof.Gen.Kernel.Frame
import proofs.«157720_j14585708937626_1_alg».proof.Proof.Gen.KernelIdeal
import proofs.«157720_j14585708937626_1_alg».proof.Proof.Gen.KernelIdeal.Skeleton
import proofs.«157720_j14585708937626_1_alg».proof.Proof.Gen.KernelIdeal.Launch
import proofs.«157720_j14585708937626_1_alg».proof.Proof.Gen.KernelIdeal.Points
import proofs.«157720_j14585708937626_1_alg».proof.Proof.Gen.KernelIdeal.Frame
import proofs.«157720_j14585708937626_1_alg».proof.Proof.Gen.ReferenceIdeal
import proofs.«157720_j14585708937626_1_alg».proof.Proof.Gen.Pre_finite_inputs
import proofs.«157720_j14585708937626_1_alg».proof.Proof.Gen.KernelIdeal.Value
import proofs.«157720_j14585708937626_1_alg».proof.Proof.Gen.ReferenceIdeal.Run
import proofs.«157720_j14585708937626_1_alg».proof.Proof.Gen.ReferenceIdeal.Read
import proofs.«157720_j14585708937626_1_alg».proof.Proof.ChebLaw
import proofs.«157720_j14585708937626_1_alg».proof.Proof.KernelBlock
import proofs.«157720_j14585708937626_1_alg».proof.Proof.KernelArray
import proofs.«157720_j14585708937626_1_alg».proof.Proof.RefRow
import proofs.«157720_j14585708937626_1_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel as printed runs and leaves its arguments alone. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference has no kernel launch: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization changed no operation. -/
theorem preserves : Cert.preserves_Kernel_KernelIdeal := trivial

/-- From agreeing finite arguments both programs end with the same [32768, 1] result: row by row the kernel's
    arrangement of the double sum is the reference's. -/
theorem algebraic : Cert.algebraic_KernelIdeal_ReferenceIdeal := by
  intro m ρ m' ρ' hpre hagree
  refine ⟨fun c => Cert.KernelIdeal.Whole.G m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v37_eq, (hagree c).1, (hagree c).2]
  obtain ⟨hx, hc⟩ := Cert.Pre_finite_inputs.Finite.real_of_pre _ _ (hpre c)
  funext i
  obtain ⟨r, u, rfl⟩ : ∃ (r : Fin 32768) (u : Fin 1), i = ix2 r u := ⟨i 0, i 1, eq_ix2 i⟩
  rw [Cert.ReferenceIdeal.RowValue.ref_row]
  exact (Cert.ChebLaw.kform_eq_rform _ _ (fun k => hx _) (fun n f => hc _)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
